-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S_ : Shape := ⟨0, ![]⟩

class Facts : Prop where
  bcast_S_S8x4x1024x1024 : S_.BroadcastsInDim S8x4x1024x1024 (![] : Fin 0 → Fin S8x4x1024x1024.rank)
  reducesTo_S8x4x1024x1024_S_d0_1_2_3 : S8x4x1024x1024.ReducesTo [0, 1, 2, 3] S_
  h_S_ : 0 < S_.numel
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_

variable [Facts]

def fn {F : FTy → Type} [FloatOps F] (main_arg0 : FVec F S8x4x1024x1024 .f32) (main_arg1 : FVec F S8x1x1024x1024 .f32) (main_arg2 : IVec S8x1024x1024 32) (main_arg3 : IVec S8x1024x1024 32) : IVec S_ 1 :=
  let main_v0 : FVec F S8x4x1024x1024 .f32 := Host.absf main_arg0
  let main_cst : FVec F S_ .f32 := constant S_ .f32 0x7F800000#32
  let main_v1 : FVec F S8x4x1024x1024 .f32 := broadcastInDim S8x4x1024x1024 ![] bcast_S_S8x4x1024x1024 main_cst
  let main_v2 : IVec S8x4x1024x1024 1 := cmpf .olt main_v0 main_v1
  let main_c : IVec S_ 1 := constantI S_ 1 1#1
  let main_v3 : IVec S_ 1 := (fun x v => Host.reduce IntOp.andi x v reducesTo_S8x4x1024x1024_S_d0_1_2_3 h_S_) main_v2 main_c
  let main_v4 : FVec F S8x1x1024x1024 .f32 := Host.absf main_arg1
  let main_cst_0 : FVec F S_ .f32 := constant S_ .f32 0x7F800000#32
  let main_v5 : FVec F S8x1x1024x1024 .f32 := broadcastInDim S8x1x1024x1024 ![] bcast_S_S8x1x1024x1024 main_cst_0
  let main_v6 : IVec S8x1x1024x1024 1 := cmpf .olt main_v4 main_v5
  let main_c_1 : IVec S_ 1 := constantI S_ 1 1#1
  let main_v7 : IVec S_ 1 := (fun x v => Host.reduce IntOp.andi x v reducesTo_S8x1x1024x1024_S_d0_1_2_3 h_S_) main_v6 main_c_1
  let main_v8 : IVec S_ 1 := andi main_v3 main_v7
  main_v8
-- ==== Kernel.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S8 : Shape := ⟨1, ![8]⟩
abbrev S8x4x64x1024 : Shape := ⟨4, ![8, 4, 64, 1024]⟩
abbrev S8x64x1024 : Shape := ⟨3, ![8, 64, 1024]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S8x4x1024x1024, .f32⟩
  | .hbm, ⟨1, _⟩ => ⟨S8x1x1024x1024, .f32⟩
  | .hbm, ⟨2, _⟩ => ⟨S8x1024x1024, .i32⟩
  | .hbm, ⟨3, _⟩ => ⟨S8x1024x1024, .i32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x4x64x1024, .f32⟩
  | .local _ .vmem, ⟨1, _⟩ => ⟨S8x4x64x1024, .f32⟩
  | .local _ .vmem, ⟨2, _⟩ => ⟨S8x64x1024, .i32⟩
  | .local _ .vmem, ⟨3, _⟩ => ⟨S8x64x1024, .i32⟩
  | .local _ .vmem, ⟨4, _⟩ => ⟨S8x64x1024, .i32⟩
  | .local _ .vmem, ⟨5, _⟩ => ⟨S8x64x1024, .i32⟩
  | .local _ .vmem, ⟨6, _⟩ => ⟨S8, .f32⟩
  | _, _ => ⟨S8x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8x4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S8_S8_0 : ∀ a, (![0] : Fin 1 → Nat) a + S8.size a ≤ S8.size a
  h_S8 : 0 < S8.numel
  inb_S8x4x64x1024_S8x4x64x1024_0_0_0_0 : ∀ a, (![0, 0, 0, 0] : Fin 4 → Nat) a + S8x4x64x1024.size a ≤ S8x4x64x1024.size a
  h_S8x4x64x1024 : 0 < S8x4x64x1024.numel
  reduces_S8x4x64x1024_S8x64x1024 : S8x4x64x1024.Reduces [1] S8x64x1024
  inb_S8x64x1024_S8x64x1024_0_0_0 : ∀ a, (![0, 0, 0] : Fin 3 → Nat) a + S8x64x1024.size a ≤ S8x64x1024.size a
  h_S8x64x1024 : 0 < S8x64x1024.numel
  shapeCasts_S8_S8 : S8.ShapeCasts S8
  reduces_S8x64x1024_S8 : S8x64x1024.Reduces [1, 2] S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x64x1024.size a ≤ S8x4x1024x1024.size a
  hwx0_0 : ∀ i : grid0.Coords, EltTy.bits .f32 = 32 ∨ (Rect.block (s := S8x4x1024x1024) S8x4x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x1024.size a ≤ S8x1024x1024.size a
  hwx0_1 : ∀ i : grid0.Coords, EltTy.bits .i32 = 32 ∨ (Rect.block (s := S8x1024x1024) S8x64x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x1024.size a ≤ S8x1024x1024.size a
  hwx0_2 : ∀ i : grid0.Coords, EltTy.bits .i32 = 32 ∨ (Rect.block (s := S8x1024x1024) S8x64x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)

variable [Facts₀]

abbrev win0_0 : Pipeline.Window sig grid0 :=
  Pipeline.Window.ofSpec (Memref.whole main_arg0) S8x4x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S8 : Shape := ⟨1, ![8]⟩

abbrev nBuf : Space → Nat
  | .hbm => 20
  | .vmem => 0
  | .smem => 0
  | _ => 0

abbrev bufTy : (tb : Table) → Fin (tcTables nBuf tb) → BufTy
  | .hbm, ⟨0, _⟩ => ⟨S8x4x1024x1024, .f32⟩
  | .hbm, ⟨1, _⟩ => ⟨S8x1x1024x1024, .f32⟩
  | .hbm, ⟨2, _⟩ => ⟨S8x1024x1024, .i32⟩
  | .hbm, ⟨3, _⟩ => ⟨S8x1024x1024, .i32⟩
  | .hbm, ⟨4, _⟩ => ⟨S_, .f32⟩
  | .hbm, ⟨5, _⟩ => ⟨S8x1024x1024, .f32⟩
  | .hbm, ⟨6, _⟩ => ⟨S_, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | .hbm, ⟨10, _⟩ => ⟨S8x1024x1024, .f32⟩
  | .hbm, ⟨11, _⟩ => ⟨S8x1024x1024, .f32⟩
  | .hbm, ⟨12, _⟩ => ⟨S8x1024x1024, .f32⟩
  | .hbm, ⟨13, _⟩ => ⟨S8x1024x1024, .f32⟩
  | .hbm, ⟨14, _⟩ => ⟨S_, .f32⟩
  | .hbm, ⟨15, _⟩ => ⟨S8, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S8x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S8x4x1024x1024_S8x1024x1024_d1 : S8x4x1024x1024.ReducesTo [1] S8x1024x1024
  h_S_ : 0 < S_.numel
  bcast_S_S8x1024x1024 : S_.BroadcastsInDim S8x1024x1024 (![] : Fin 0 → Fin S8x1024x1024.rank)
  reducesTo_S8x1024x1024_S8_d1_2 : S8x1024x1024.ReducesTo [1, 2] S8
  reducesTo_S8_S_d0 : S8.ReducesTo [0] S_

variable [Facts₀]

class Facts : Prop extends Facts₀ where

variable [Facts]
-- ==== Proof.LibTwoAxisSum.lean ====
/-
  Sums over two axes of a rank-3 vector, at the extended reals, for any sizes.

    * a sum over the indices of an `[A, B, C]` vector whose first coordinate is that of a given index of `[A]`
      is the double sum over the second and third coordinates;
    * so a float `multi_reduction <add>` over axes 1 and 2 of an `[A, B, C]` vector into `[A]`, at `j`, is
      `∑ p, ∑ q, v (j, p, q)`, and the host's `reduce add` over the same axes is its initial value plus that sum;
    * rows in tiles: the sum over `T` tiles of the sum over the `R` rows of a tile, row `R·s + p` of tile `s`,
      is the sum over all `T·R` rows.
-/
import Idealize.ShloMosaic.PureOps.Ideal.Laws
import Idealize.ShloMosaic.Lib.ValueIdx

noncomputable section

namespace Cert.Lib.TwoAxisSum

open Idealize.ShloMosaic Idealize.ShloMosaic.ValueIdx

variable {A B C : Nat}

/-- Over the indices of `[A, B, C]` that a map `drop` keeping the first coordinate sends to `j`, a sum is the double
    sum over the other two coordinates. -/
theorem sum_filter_first {M : Type*} [AddCommMonoid M]
    (drop : (⟨3, ![A, B, C]⟩ : Shape).Idx → (⟨1, ![A]⟩ : Shape).Idx)
    (hdrop : ∀ i, (drop i 0).val = (i 0).val) (x : (⟨3, ![A, B, C]⟩ : Shape).Idx → M) (j : (⟨1, ![A]⟩ : Shape).Idx)
    [DecidablePred fun i => drop i = j] :
    ∑ i ∈ Finset.univ.filter (fun i => drop i = j), x i = ∑ p : Fin B, ∑ q : Fin C, x (ix3 (j 0) p q) := by
  rw [← Fintype.sum_prod_type' (f := fun p q => x (ix3 (j 0) p q))]
  symm
  refine Finset.sum_bij (fun (pq : Fin B × Fin C) _ => ix3 (j 0) pq.1 pq.2) ?_ ?_ ?_ ?_
  · intro pq _
    rw [Finset.mem_filter]
    refine ⟨Finset.mem_univ _, ?_⟩
    funext b
    match b with
    | ⟨0, _⟩ => exact Fin.ext (hdrop _)
  · intro a _ b _ h
    exact Prod.ext (congrFun h 1) (congrFun h 2)
  · intro i hi
    rw [Finset.mem_filter] at hi
    refine ⟨(i 1, i 2), Finset.mem_univ _, ?_⟩
    have h0 : j 0 = i 0 := Fin.ext (by rw [← hi.2]; exact hdrop i)
    rw [h0]
    exact (eq_ix3 i).symm
  · intro pq _
    rfl

/-- The kernel's sum over axes 1 and 2, at `j`: the double sum of the row `j`. -/
theorem reduceAdd_apply (h : (⟨3, ![A, B, C]⟩ : Shape).Reduces [1, 2] ⟨1, ![A]⟩)
    (x : (⟨3, ![A, B, C]⟩ : Shape).Idx → EReal) (j : (⟨1, ![A]⟩ : Shape).Idx) :
    Ideal.reduceAdd h x j = ∑ p : Fin B, ∑ q : Fin C, x (ix3 (j 0) p q) := by
  unfold Ideal.reduceAdd
  exact sum_filter_first h.drop (fun _ => rfl) x j

/-- A float `multi_reduction <add>` over axes 1 and 2, read at `j`. -/
theorem multiReduction_add_apply {φ : FTy} (src : FVec Ideal ⟨3, ![A, B, C]⟩ φ) (acc : BitVec φ.bits)
    (h : (⟨3, ![A, B, C]⟩ : Shape).Reduces [1, 2] ⟨1, ![A]⟩) (hφ : FKind.Formats φ) (hacc : acc = FKind.add.neutral φ hφ)
    (j : (⟨1, ![A]⟩ : Shape).Idx) :
    multiReduction .add [1, 2] ⟨1, ![A]⟩ src acc h hφ hacc j = ∑ p : Fin B, ∑ q : Fin C, src (ix3 (j 0) p q) :=
  reduceAdd_apply h src j

/-- The host's `reduce add` over axes 1 and 2, read at `j`: the initial value plus the double sum. -/
theorem hostReduceAdd_apply (h : (⟨3, ![A, B, C]⟩ : Shape).ReducesTo [1, 2] ⟨1, ![A]⟩)
    (x : (⟨3, ![A, B, C]⟩ : Shape).Idx → EReal) (init : EReal) (j : (⟨1, ![A]⟩ : Shape).Idx) :
    Ideal.hostReduceAdd h x init j = init + ∑ p : Fin B, ∑ q : Fin C, x (ix3 (j 0) p q) := by
  unfold Ideal.hostReduceAdd
  exact congrArg (init + ·) (sum_filter_first h.drop (fun _ => rfl) x j)

/-- Rows in tiles: `T` tiles of `R` rows are the `T·R` rows. -/
theorem sum_tiles {M : Type*} [AddCommMonoid M] (R : Nat) (g : Nat → M) :
    ∀ T : Nat, ∑ s ∈ Finset.range T, ∑ p : Fin R, g (R * s + p.val) = ∑ k : Fin (T * R), g k.val
  | 0 => by
    rw [Finset.sum_range_zero, Fin.sum_univ_eq_sum_range (fun k => g k) (0 * R), Nat.zero_mul, Finset.sum_range_zero]
  | T + 1 => by
    rw [Finset.sum_range_succ, sum_tiles R g T, Fin.sum_univ_eq_sum_range (fun k => g k) (T * R),
      Fin.sum_univ_eq_sum_range (fun k => g k) ((T + 1) * R), Fin.sum_univ_eq_sum_range (fun p => g (R * T + p)) R,
      Nat.add_mul, Nat.one_mul, Finset.sum_range_add, Nat.mul_comm T R]

end Cert.Lib.TwoAxisSum

end
-- ==== Proof.Spec.lean ====
/-
  The loss, as one function of the three arrays it reads.

  For a sample `b`, a row `h` and a lane `w`: the mean of the four channel values of the likelihood at `(b, ·, h, w)`
  (their sum divided by 4), times the weight at `(b, h, w)` read as a signed integer, minus the reference map there read
  the same way; the entry is that residual squared. A sample's total is the sum of its entries over all 1024 rows and
  1024 lanes. Summing a sample's rows in 16 tiles of 64 rows, tile by tile, gives the same total: addition of extended
  reals is commutative and associative, so no finiteness is needed.
-/
import Idealize.ShloMosaic.PureOps.Ideal.Laws
import Idealize.ShloMosaic.Lib.ValueIdx
import proofs.«168653_j15015205667337_1_alg».proof.Proof.LibTwoAxisSum

noncomputable section

namespace Cert.Spec

open Idealize.ShloMosaic Idealize.ShloMosaic.ValueIdx

/-- The squared residual from a channel sum `s`, a weight word and a reference-map word: `(s / 4 · w − r)²`, the
    divisor the f32 word of 4. -/
def sqResidual (s : EReal) (wv rv : BitVec 32) : EReal :=
  (Ideal.div s (Ideal.ofBits .f32 0x40800000#32) * ((wv.toInt : ℝ) : EReal) - ((rv.toInt : ℝ) : EReal))
    * (Ideal.div s (Ideal.ofBits .f32 0x40800000#32) * ((wv.toInt : ℝ) : EReal) - ((rv.toInt : ℝ) : EReal))

variable (lh : (⟨4, ![8, 4, 1024, 1024]⟩ : Shape).Idx → EReal) (wm rm : (⟨3, ![8, 1024, 1024]⟩ : Shape).Idx → BitVec 32)

/-- The entry at sample `b`, row `h`, lane `w`. -/
def entry (b : Fin 8) (h w : Fin 1024) : EReal :=
  sqResidual (∑ k : Fin 4, lh (ix4 b k h w)) (wm (ix3 b h w)) (rm (ix3 b h w))

/-- A sample's total: all rows, all lanes. -/
def perSample : (⟨1, ![8]⟩ : Shape).Idx → EReal :=
  fun j => ∑ h : Fin 1024, ∑ w : Fin 1024, entry lh wm rm (j 0) h w

/-- The sum of row `h` of sample `b` over the lanes, for any natural `h`; a row past the array contributes nothing. -/
def rowSum (b : Fin 8) (h : Nat) : EReal :=
  if hh : h < 1024 then ∑ w : Fin 1024, entry lh wm rm b ⟨h, hh⟩ w else 0

/-- Tile `s` of sample `j`: its 64 rows `64·s + p`. -/
def tileSum (s : Nat) (j : (⟨1, ![8]⟩ : Shape).Idx) : EReal :=
  ∑ p : Fin 64, rowSum lh wm rm (j 0) (64 * s + p.val)

/-- The 16 tiles of a sample add up to its total. -/
theorem sum_tileSum (j : (⟨1, ![8]⟩ : Shape).Idx) :
    ∑ s ∈ Finset.range 16, tileSum lh wm rm s j = perSample lh wm rm j := by
  unfold tileSum
  rw [Cert.Lib.TwoAxisSum.sum_tiles 64 (rowSum lh wm rm (j 0)) 16]
  show ∑ k : Fin 1024, rowSum lh wm rm (j 0) k.val = _
  unfold perSample
  refine Finset.sum_congr rfl fun k _ => ?_
  unfold rowSum
  rw [dif_pos k.isLt]

/-- The mean over the batch, as both programs form it: the eight totals summed from the zero word, divided by the
    f32 word of 8. -/
def batchMean (x : (⟨1, ![8]⟩ : Shape).Idx → EReal) : (⟨0, ![]⟩ : Shape).Idx → EReal :=
  Host.divf (F := Ideal) (φ := .f32)
    (Host.reduceAdd (F := Ideal) (φ := .f32) (axes := [0]) x (constant (F := Ideal) ⟨0, ![]⟩ .f32 0x00000000#32))
    (constant (F := Ideal) ⟨0, ![]⟩ .f32 0x41000000#32)

end Cert.Spec

end
-- ==== Proof.RefValue.lean ====
/-
  The reference's per-sample sums are the specification's.

  Read one operation at a time, the reference's squared-residual stage at `(b, h, w)` is the specification's entry
  there (the channel sum starts from the zero word, which adds nothing); its sum over axes 1 and 2 from the zero word is
  therefore each sample's total.
-/
import proofs.«168653_j15015205667337_1_alg».proof.Proof.Gen.ReferenceIdeal.Read
import proofs.«168653_j15015205667337_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The channel sum at `(b, h, w)` reads the likelihood at `(b, k, h, w)`. -/
theorem channel_index (b : Fin 8) (h w : Fin 1024) (k : Fin 4) : idx_main_v0 (ix3 b h w) k = ix4 b k h w :=
  funext fun a => Fin.ext (by match a with | ⟨0, _⟩ => rfl | ⟨1, _⟩ => rfl | ⟨2, _⟩ => rfl | ⟨3, _⟩ => rfl)

/-- The squared-residual stage at `(b, h, w)` is the specification's entry. -/
theorem squared_apply (x0 : (⟨S8x4x1024x1024, .f32⟩ : BufTy).Contents (Elt Ideal))
    (x2 x3 : (⟨S8x1024x1024, .i32⟩ : BufTy).Contents (Elt Ideal)) (b : Fin 8) (h w : Fin 1024) :
    val_main_v7 (F := Ideal) x0 x2 x3 (ix3 b h w) = Cert.Spec.entry x0 x2 x3 b h w := by
  rw [val_main_v7_apply, val_main_v6_apply, val_main_v5_apply, val_main_v4_apply, val_main_v3_apply, val_main_v2_apply,
    val_main_v1_apply, val_main_v0_apply, val_main_cst_0_apply, val_main_cst_apply]
  simp only [channel_index, Ideal.mulf_def, Ideal.subf_def, Ideal.hostDivf_def, Ideal.ofBits_def, Ideal.ofBits_zero_f32,
    zero_add]
  rfl

/-- The reference's sum over rows and lanes is each sample's total. -/
theorem perSample_eq (x0 : (⟨S8x4x1024x1024, .f32⟩ : BufTy).Contents (Elt Ideal))
    (x2 x3 : (⟨S8x1024x1024, .i32⟩ : BufTy).Contents (Elt Ideal)) :
    val_main_v8 (F := Ideal) x0 x2 x3 = Cert.Spec.perSample x0 x2 x3 := by
  funext j
  unfold val_main_v8
  simp only [Host.reduceAdd, Ideal.hostReduceAdd_def]
  refine (Cert.Lib.TwoAxisSum.hostReduceAdd_apply (A := 8) (B := 1024) (C := 1024) reducesTo_S8x1024x1024_S8_d1_2 _ _ j).trans ?_
  rw [val_main_cst_1_apply, Ideal.ofBits_def, Ideal.ofBits_zero_f32, zero_add]
  unfold Cert.Spec.perSample
  exact Finset.sum_congr rfl fun h _ => Finset.sum_congr rfl fun w _ => squared_apply x0 x2 x3 (j 0) h w

/-- The reference's result: the batch mean of the samples' totals. -/
theorem result_eq (x0 : (⟨S8x4x1024x1024, .f32⟩ : BufTy).Contents (Elt Ideal))
    (x2 x3 : (⟨S8x1024x1024, .i32⟩ : BufTy).Contents (Elt Ideal)) :
    val_main_v10 (F := Ideal) x0 x2 x3 = Cert.Spec.batchMean (Cert.Spec.perSample x0 x2 x3) := by
  rw [← perSample_eq]
  rfl

end Cert.ReferenceIdeal.RefValue

end
-- ==== Proof.KernelPieces.lean ====
/-
  What one grid point leaves in the output's staging buffer, as the payload of its last store.

  At the first point the buffer is zeroed and then updated, so the point leaves the update of the zero vector; at every
  other point it leaves the update of what the point before left. The update is the body's one arithmetic term
  (the second payload): the accumulator plus this tile's per-sample sums of squared residuals.
-/
import proofs.«168653_j15015205667337_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of each whole-block access, as constant functions. -/
theorem zero1 : (![0] : Fin S8.rank → Nat) = fun _ => 0 :=
  funext fun a => by match a with | ⟨0, _⟩ => rfl
theorem zero3 : (![0, 0, 0] : Fin S8x64x1024.rank → Nat) = fun _ => 0 :=
  funext fun a => by match a with | ⟨0, _⟩ => rfl | ⟨1, _⟩ => rfl | ⟨2, _⟩ => rfl
theorem zero4 : (![0, 0, 0, 0] : Fin S8x4x64x1024.rank → Nat) = fun _ => 0 :=
  funext fun a => by match a with | ⟨0, _⟩ => rfl | ⟨1, _⟩ => rfl | ⟨2, _⟩ => rfl | ⟨3, _⟩ => rfl

/-- The first point: the zero vector, updated with the point's blocks. -/
theorem first_point (c : Dev nD) (i : grid0.Coords) (arg1 : Memref sig .tc .vmem S8x4x64x1024 .f32) (harg1 : arg1.IsWhole) (arg2 : Memref sig .tc .vmem S8x64x1024 .i32) (harg2 : arg2.IsWhole) (arg3 : Memref sig .tc .vmem S8x64x1024 .i32) (harg3 : arg3.IsWhole) (arg4 : Memref sig .tc .vmem S8 .f32) (harg4 : arg4.IsWhole) (hc0 : cond0_0 i)
    (x0 : Vec F S8x4x64x1024 .f32) (x1 : Vec F S8x64x1024 .i32) (x2 : Vec F S8x64x1024 .i32) :
    out0_A_3 c i arg1 harg1 arg2 harg2 arg3 harg3 arg4 harg4 hc0 x0 x1 x2 = k0_pay2 x0 x1 x2 (k0_pay1 (F := F)) := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  rw [View.canon_cons_unit_zero (S := S8) zero1]
  simp only [View.readAt_eq_ld, harg1.read_unread, harg2.read_unread, harg3.read_unread,
    View.ld_unit_zero (S := S8x4x64x1024) zero4, View.ld_unit_zero (S := S8x64x1024) zero3,
    View.readCov_unit_zero (S := S8) _ zero1]

/-- A later point: what the point before left, updated with the point's blocks. -/
theorem later_point (c : Dev nD) (i : grid0.Coords) (arg1 : Memref sig .tc .vmem S8x4x64x1024 .f32) (harg1 : arg1.IsWhole) (arg2 : Memref sig .tc .vmem S8x64x1024 .i32) (harg2 : arg2.IsWhole) (arg3 : Memref sig .tc .vmem S8x64x1024 .i32) (harg3 : arg3.IsWhole) (arg4 : Memref sig .tc .vmem S8 .f32) (harg4 : arg4.IsWhole) (hc0 : ¬cond0_0 i)
    (x0 : Vec F S8x4x64x1024 .f32) (x1 : Vec F S8x64x1024 .i32) (x2 : Vec F S8x64x1024 .i32) (xo3 : Vec F S8 .f32) :
    out0_B_3 c i arg1 harg1 arg2 harg2 arg3 harg3 arg4 harg4 hc0 x0 x1 x2 xo3 = k0_pay2 x0 x1 x2 xo3 := by
  unfold out0_B_3
  rw [View.read_writes_eq_canon _ _ _ (cover0_B_3 c i arg1 harg1 arg2 harg2 arg3 harg3 arg4 harg4 hc0 x0 x1 x2 xo3)]
  unfold kernelRun0_B
  dsimp only
  sl_unfold_words
  rw [View.canon_unit_zero (S := S8) zero1]
  simp only [View.readAt_eq_ld, harg1.read_unread, harg2.read_unread, harg3.read_unread, harg4.read_unread,
    View.ld_unit_zero (S := S8x4x64x1024) zero4, View.ld_unit_zero (S := S8x64x1024) zero3,
    View.ld_unit_zero (S := S8) zero1]

end Cert.KernelIdeal.Pieces

end
-- ==== Proof.KernelPoint.lean ====
/-
  The body's update, read at one sample.

  From a likelihood block `x` of shape [8, 4, 64, 1024], a weight block and a reference-map block of shape [8, 64, 1024]
  and an accumulator of shape [8], the update at sample `j` is the accumulator there plus the sum, over the block's 64
  rows and 1024 lanes, of the squared residual built from the block's four channel values at that row and lane.
-/
import proofs.«168653_j15015205667337_1_alg».proof.Proof.Gen.KernelIdeal.Skeleton
import proofs.«168653_j15015205667337_1_alg».proof.Proof.Spec
import Idealize.ShloMosaic.Lib.Pipeline.Value

noncomputable section

namespace Cert.KernelIdeal.Point

open Cert.KernelIdeal Cert.KernelIdeal.Gen
open Idealize.ShloMosaic Idealize.ShloMosaic.ValueIdx

/-- The sum over the channel axis of a likelihood block, at `(b, p, q)`. -/
theorem channel_sum (x : FVec Ideal S8x4x64x1024 .f32) (b : Fin 8) (p : Fin 64) (q : Fin 1024) :
    multiReduction .add [1] S8x64x1024 x 0x00000000#32 reduces_S8x4x64x1024_S8x64x1024 (.inl rfl) rfl (ix3 b p q)
      = ∑ k : Fin 4, x (ix4 b k p q) := by
  refine (Ideal.multiReduction_add_single x _ reduces_S8x4x64x1024_S8x64x1024 _ _ (ix3 b p q)).trans ?_
  refine Finset.sum_congr rfl fun k _ => congrArg x ?_
  exact funext fun a => Fin.ext (by match a with | ⟨0, _⟩ => rfl | ⟨1, _⟩ => rfl | ⟨2, _⟩ => rfl | ⟨3, _⟩ => rfl)

/-- The squared residual the body forms, at `(b, p, q)`. -/
theorem squared_apply (x : FVec Ideal S8x4x64x1024 .f32) (wv rv : IVec S8x64x1024 32) (b : Fin 8) (p : Fin 64) (q : Fin 1024) :
    mulf
        (subf (mulf (divf (multiReduction .add [1] S8x64x1024 x 0x00000000#32 reduces_S8x4x64x1024_S8x64x1024 (.inl rfl) rfl)
          (broadcast S8x64x1024 (Scalar.ofBits (F := Ideal) .f32 0x40800000#32))) (sitofp .f32 wv)) (sitofp .f32 rv))
        (subf (mulf (divf (multiReduction .add [1] S8x64x1024 x 0x00000000#32 reduces_S8x4x64x1024_S8x64x1024 (.inl rfl) rfl)
          (broadcast S8x64x1024 (Scalar.ofBits (F := Ideal) .f32 0x40800000#32))) (sitofp .f32 wv)) (sitofp .f32 rv))
        (ix3 b p q)
      = Cert.Spec.sqResidual (∑ k : Fin 4, x (ix4 b k p q)) (wv (ix3 b p q)) (rv (ix3 b p q)) := by
  unfold Cert.Spec.sqResidual
  rw [← channel_sum x b p q]
  rfl

/-- The update at sample `j`. -/
theorem update_apply (x : Vec Ideal S8x4x64x1024 .f32) (wv rv : Vec Ideal S8x64x1024 .i32) (acc : Vec Ideal S8 .f32) (j : S8.Idx) :
    k0_pay2 (F := Ideal) x wv rv acc j
      = acc j + ∑ p : Fin 64, ∑ q : Fin 1024,
          Cert.Spec.sqResidual (∑ k : Fin 4, x (ix4 (j 0) k p q)) (wv (ix3 (j 0) p q)) (rv (ix3 (j 0) p q)) := by
  unfold k0_pay2
  dsimp only
  refine (addf_apply _ _ j).trans ?_
  refine congr (congrArg HAdd.hAdd (congrFun (shapeCast_self acc shapeCasts_S8_S8) j)) ?_
  refine (Cert.Lib.TwoAxisSum.multiReduction_add_apply (A := 8) (B := 64) (C := 1024) _ _ reduces_S8x64x1024_S8 _ _ j).trans ?_
  exact Finset.sum_congr rfl fun p _ => Finset.sum_congr rfl fun q _ => squared_apply x wv rv (j 0) p q

/-- The zero vector the first point starts from. -/
theorem zero_apply (j : S8.Idx) : k0_pay1 (F := Ideal) j = 0 := by
  unfold k0_pay1
  exact Ideal.ofBits_zero_f32

end Cert.KernelIdeal.Point

end
-- ==== Proof.KernelValue.lean ====
/-
  What the kernel's output array holds after the run, and the result of the host lines after it.

  Block `t` of each input is rows `64·t … 64·t + 63` of its array, every sample, every lane. So the update at point `t`
  adds tile `t`'s per-sample sums, and after point `n` the output's staging buffer holds the sum of tiles `0 … n` (by
  induction over the points: the first starts from the zero vector, each later one from what the point before left). The
  buffer is written back once, after the last point, and its one block is the whole array: the array ends at the sum of
  all 16 tiles, which is each sample's total. The host lines after the region then take the batch mean of that array.
-/
import proofs.«168653_j15015205667337_1_alg».proof.Proof.Gen.KernelIdeal.Frame
import proofs.«168653_j15015205667337_1_alg».proof.Proof.KernelPieces
import proofs.«168653_j15015205667337_1_alg».proof.Proof.KernelPoint
import proofs.«168653_j15015205667337_1_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three arrays the kernel reads, as the region finds them, and their blocks at a point. -/
abbrev lhArr (c : Dev nD) : Vec Ideal S8x4x1024x1024 .f32 := V m c main_arg0
abbrev wArr (c : Dev nD) : Vec Ideal S8x1024x1024 .i32 := V m c main_arg2
abbrev rArr (c : Dev nD) : Vec Ideal S8x1024x1024 .i32 := V m c main_arg3
abbrev lhBlk (c : Dev nD) (t : Fin cfg0.N) : Vec Ideal S8x4x64x1024 .f32 := iblk m c 0 t
abbrev wBlk (c : Dev nD) (t : Fin cfg0.N) : Vec Ideal S8x64x1024 .i32 := iblk m c 1 t
abbrev rBlk (c : Dev nD) (t : Fin cfg0.N) : Vec Ideal S8x64x1024 .i32 := iblk m c 2 t

/-- The block indices at point `t`: the inputs move along the row axis with `t`, the output's block never moves. -/
theorem index_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 1) = 0 :=
  (by decide +kernel : ∀ t : Fin grid0.N, _)

/-- The likelihood block at point `t`, at `(b, k, p, q)`, is the array at row `64·t + p`. -/
theorem lhBlk_apply (c : Dev nD) (t : Fin cfg0.N) (b : Fin 8) (k : Fin 4) (p : Fin 64) (q : Fin 1024)
    (hh : 64 * t.val + p.val < 1024) :
    lhBlk m c t (ix4 b k p q) = lhArr m c (ix4 b k ⟨64 * t.val + p.val, hh⟩ q) := by
  obtain ⟨e0, e1, e2, e3, -⟩ := index_facts t
  show V m c main_arg0 (((cfg0.win 0).blk t).view.emb (ix4 b k p q)) = V m c main_arg0 (ix4 b k ⟨64 * t.val + p.val, hh⟩ q)
  refine congrArg (V m c main_arg0) ?_
  funext a; apply Fin.ext
  match a with
  | ⟨0, _⟩ => show win0_0.index t (0 : Fin 4) * 8 + 1 * b.val = b.val; omega
  | ⟨1, _⟩ => show win0_0.index t (1 : Fin 4) * 4 + 1 * k.val = k.val; omega
  | ⟨2, _⟩ => show win0_0.index t (2 : Fin 4) * 64 + 1 * p.val = 64 * t.val + p.val; omega
  | ⟨3, _⟩ => show win0_0.index t (3 : Fin 4) * 1024 + 1 * q.val = q.val; omega

/-- The weight block likewise. -/
theorem wBlk_apply (c : Dev nD) (t : Fin cfg0.N) (b : Fin 8) (p : Fin 64) (q : Fin 1024) (hh : 64 * t.val + p.val < 1024) :
    wBlk m c t (ix3 b p q) = wArr m c (ix3 b ⟨64 * t.val + p.val, hh⟩ q) := by
  obtain ⟨-, -, -, -, e0, e1, e2, -⟩ := index_facts t
  show V m c main_arg2 (((cfg0.win 1).blk t).view.emb (ix3 b p q)) = V m c main_arg2 (ix3 b ⟨64 * t.val + p.val, hh⟩ q)
  refine congrArg (V m c main_arg2) ?_
  funext a; apply Fin.ext
  match a with
  | ⟨0, _⟩ => show win0_1.index t (0 : Fin 3) * 8 + 1 * b.val = b.val; omega
  | ⟨1, _⟩ => show win0_1.index t (1 : Fin 3) * 64 + 1 * p.val = 64 * t.val + p.val; omega
  | ⟨2, _⟩ => show win0_1.index t (2 : Fin 3) * 1024 + 1 * q.val = q.val; omega

/-- The reference-map block likewise. -/
theorem rBlk_apply (c : Dev nD) (t : Fin cfg0.N) (b : Fin 8) (p : Fin 64) (q : Fin 1024) (hh : 64 * t.val + p.val < 1024) :
    rBlk m c t (ix3 b p q) = rArr m c (ix3 b ⟨64 * t.val + p.val, hh⟩ q) := by
  obtain ⟨-, -, -, -, -, -, -, e0, e1, e2, -⟩ := index_facts t
  show V m c main_arg3 (((cfg0.win 2).blk t).view.emb (ix3 b p q)) = V m c main_arg3 (ix3 b ⟨64 * t.val + p.val, hh⟩ q)
  refine congrArg (V m c main_arg3) ?_
  funext a; apply Fin.ext
  match a with
  | ⟨0, _⟩ => show win0_2.index t (0 : Fin 3) * 8 + 1 * b.val = b.val; omega
  | ⟨1, _⟩ => show win0_2.index t (1 : Fin 3) * 64 + 1 * p.val = 64 * t.val + p.val; omega
  | ⟨2, _⟩ => show win0_2.index t (2 : Fin 3) * 1024 + 1 * q.val = q.val; omega

/-- What the blocks at point `t` add for sample `j` is tile `t`'s sum. -/
theorem tile_eq (c : Dev nD) (t : Fin cfg0.N) (j : S8.Idx) :
    ∑ p : Fin 64, ∑ q : Fin 1024,
        Cert.Spec.sqResidual (∑ k : Fin 4, lhBlk m c t (ix4 (j 0) k p q)) (wBlk m c t (ix3 (j 0) p q)) (rBlk m c t (ix3 (j 0) p q))
      = Cert.Spec.tileSum (lhArr m c) (wArr m c) (rArr m c) t.val j := by
  have hN : t.val < 16 := lt_of_lt_of_eq t.isLt N_0
  unfold Cert.Spec.tileSum
  refine Finset.sum_congr rfl fun p _ => ?_
  have hh : 64 * t.val + p.val < 1024 := by have := p.isLt; omega
  unfold Cert.Spec.rowSum
  rw [dif_pos hh]
  refine Finset.sum_congr rfl fun q _ => ?_
  unfold Cert.Spec.entry
  have e0 : ∑ k : Fin 4, lhBlk m c t (ix4 (j 0) k p q) = ∑ k : Fin 4, lhArr m c (ix4 (j 0) k ⟨64 * t.val + p.val, hh⟩ q) :=
    Finset.sum_congr rfl fun k _ => lhBlk_apply m c t (j 0) k p q hh
  rw [e0, wBlk_apply m c t (j 0) p q hh, rBlk_apply m c t (j 0) p q hh]

/-- After point `n` the output's staging buffer holds, for each sample, the sum of tiles `0 … n`. -/
theorem running_total (c : Dev nD) : ∀ (n : ℕ) (hn : n < cfg0.N) (j : S8.Idx),
    outsAt0 m c n hn j = ∑ s ∈ Finset.range (n + 1), Cert.Spec.tileSum (lhArr m c) (wArr m c) (rArr m c) s j
  | 0, hn, j => by
    have h := outsAt0_A m c ⟨0, hn⟩ (Nat.zero_mod 16)
    rw [Finset.sum_range_one]
    refine (congrFun h j).trans ?_
    rw [Pieces.first_point]
    refine (Point.update_apply _ _ _ _ j).trans ?_
    rw [Point.zero_apply, zero_add]
    exact tile_eq m c ⟨0, hn⟩ j
  | n + 1, hn, j => by
    have hN : n + 1 < 16 := lt_of_lt_of_eq hn N_0
    have h := outsAt0_B m c ⟨n + 1, hn⟩ (by show ¬ (n + 1) % 16 = 0; omega)
    rw [Finset.sum_range_succ, ← running_total c n (Nat.lt_of_succ_lt hn) j]
    refine (congrFun h j).trans ?_
    rw [Pieces.later_point]
    refine (Point.update_apply _ _ _ _ j).trans ?_
    exact congrArg (_ + ·) (tile_eq m c ⟨n + 1, hn⟩ j)

/-- The one write-back, after the last point, writes each sample's total. -/
theorem flushed_total (c : Dev nD) (t : Fin cfg0.N) (hf : (cfg0.win 3).flush t = true) :
    (dats m 0 c).flushed 3 t
      = ((cfg0.win 3).blk t).view.read (Elt Ideal) (Cert.Spec.perSample (lhArr m c) (wArr m c) (rArr m c)) := by
  have h15 : t.val % 16 = 15 := (flush0_3 t).mp hf
  have hN : t.val < 16 := lt_of_lt_of_eq t.isLt N_0
  obtain ⟨-, -, -, -, -, -, -, -, -, -, e3⟩ := index_facts t
  show (cfg0.win 3).cut (grid0.coords t) ((dats m 0 c).after 3 t) = _
  rw [after0_3]
  funext y
  show outsAt0 m c t.val t.isLt y
    = Cert.Spec.perSample (lhArr m c) (wArr m c) (rArr m c) (((cfg0.win 3).blk t).view.emb y)
  have hy : ((cfg0.win 3).blk t).view.emb y = y := by
    funext a; apply Fin.ext
    match a with
    | ⟨0, _⟩ => show win0_3.index t (0 : Fin 1) * 8 + 1 * (y 0).val = (y 0).val; omega
  rw [hy, running_total m c t.val t.isLt y]
  have e : t.val + 1 = 16 := by omega
  rw [e]
  exact Cert.Spec.sum_tileSum _ _ _ y

/-- The last point's block is the whole array. -/
theorem covered (i : S8.Idx) : ∃ t : Fin cfg0.N, (cfg0.win 3).flush t = true ∧ i ∈ ((cfg0.win 3).blk t).view.set := by
  refine ⟨t0_15, (flush0_3 t0_15).mpr rfl, ?_⟩
  obtain ⟨-, -, -, -, -, -, -, -, -, -, e3⟩ := index_facts t0_15
  show i ∈ ((View.whole main_v0).slice (win0_3.rect t0_15)).set
  rw [View.set_slice_whole, Rect.mem_set_unit]
  intro a
  match a with
  | ⟨0, _⟩ =>
    show win0_3.index t0_15 (0 : Fin 1) * 8 ≤ (i 0).val ∧ (i 0).val < win0_3.index t0_15 (0 : Fin 1) * 8 + 8
    have hi : (i 0).val < 8 := (i 0).isLt
    omega

/-- The output array after the run: each sample's total. -/
theorem final_total (c : Dev nD) :
    (dats m 0 c).arrAt 3 cfg0.N = Cert.Spec.perSample (lhArr m c) (wArr m c) (rArr m c) :=
  (dats m 0 c).arrAt_eq_of_cover 3 _ (fun t hf => flushed_total m c t hf) covered

/-- The host lines after the region leave the batch mean of the totals in the result buffer. -/
theorem result (c : Dev nD) :
    Pipeline.afterTail₀ cfgs (dats m) 0 (V0 m) [hostOps1] c main_v2
      = Cert.Spec.batchMean (Cert.Spec.perSample (lhArr m c) (wArr m c) (rArr m c)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = Cert.Spec.perSample (lhArr m c) (wArr m c) (rArr m c) :=
    (Pipeline.withArrays_arr spec0 launch0.win.arr_inj c (V0 m c) (fun w => (dats m 0 c).arrAt w (cfgs 0).N) 3).trans
      (final_total m c)
  rw [e]
  rfl

/-- The kernel program's run, read: the result buffer ends at the batch mean of the samples' totals of the argument
    arrays, and the arguments end unchanged. -/
theorem run : θ_run defs (onTc (τ := τ) (main (F := Ideal))) ⟨m, fun _ => 0, ρ⟩ fun r => ∀ c : Dev nD,
      r.2.mem ((c.tc : Thread nD τ).loc main_v2)
        = Cert.Spec.batchMean (Cert.Spec.perSample (m ((c.tc : Thread nD τ).loc main_arg0))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (Pipeline.mem_restRefs_of main_v2 (by decide) (by decide))).trans (result m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).1 1).trans (((dats m 0 c).arrAt_in 1 rfl _).trans ((A_eq m c 1).trans (V_main_arg2 m c))),
        ((h c).1 2).trans (((dats m 0 c).arrAt_in 2 rfl _).trans ((A_eq m c 2).trans (V_main_arg3 m c)))⟩)
    (run_main m ρ)

end Cert.KernelIdeal.KValue

end
-- ==== Proof.lean ====
/-
  The kernel computes a topological loss in 16 tiles of 64 rows and the reference computes it in one sweep; over the
  extended reals the two are the same number.

  For each sample, both form at every row and lane the squared residual `(mean of the four channels · weight − ref)²`,
  the mean a sum divided by the f32 word of 4, the integer maps read as signed integers. The reference sums a sample's
  1024 × 1024 entries at once; the kernel adds, tile after tile, the sum of a tile's 64 × 1024 entries to an accumulator
  it zeroes at the first tile. Sums of extended reals may be regrouped freely (addition is commutative and associative
  there, infinities included), so the accumulator ends at each sample's total and the precondition is never opened. Both
  programs then take the same batch mean of the eight totals.

  The kernel's frames are the generated ones; the reference's frame is its generated run with the result dropped; the
  idealization rewrote nothing, so there is nothing to preserve.
-/
import proofs.«168653_j15015205667337_1_alg».proof.Defs
import proofs.«168653_j15015205667337_1_alg».proof.Proof.Gen.Kernel
import proofs.«168653_j15015205667337_1_alg».proof.Proof.Gen.Kernel.Frame
import proofs.«168653_j15015205667337_1_alg».proof.Proof.Gen.KernelIdeal
import proofs.«168653_j15015205667337_1_alg».proof.Proof.Gen.KernelIdeal.Frame
import proofs.«168653_j15015205667337_1_alg».proof.Proof.Gen.ReferenceIdeal
import proofs.«168653_j15015205667337_1_alg».proof.Proof.Gen.ReferenceIdeal.Run
import proofs.«168653_j15015205667337_1_alg».proof.Proof.Gen.ReferenceIdeal.Read
import proofs.«168653_j15015205667337_1_alg».proof.Proof.Gen.Pre_finite_inputs
import proofs.«168653_j15015205667337_1_alg».proof.Proof.RefValue
import proofs.«168653_j15015205667337_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the batch mean of the samples' totals of the same three arrays. -/
theorem algebraic : Cert.algebraic_KernelIdeal_ReferenceIdeal := by
  intro m ρ m' ρ' _ hagree
  refine ⟨fun c => Cert.Spec.batchMean (Cert.Spec.perSample
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.RefValue.result_eq,
    (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
